-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S4x4096x2048 .f32) (main_arg1 : FVec F S2048x2048 .f32) (main_arg2 : FVec F S2048 .f32) (main_arg3 : FVec F S2048x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S4x4096x2048 : Shape := ⟨3, ![4, 4096, 2048]⟩
abbrev S2048x2048 : Shape := ⟨2, ![2048, 2048]⟩
abbrev S2048 : Shape := ⟨1, ![2048]⟩
abbrev S256x2048 : Shape := ⟨2, ![256, 2048]⟩
abbrev S16384x2048 : Shape := ⟨2, ![16384, 2048]⟩
abbrev S1x2048 : Shape := ⟨2, ![1, 2048]⟩
abbrev S512x2048 : Shape := ⟨2, ![512, 2048]⟩

abbrev nBuf : Space → Nat
  | .hbm => 9
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .bf16⟩
  | .hbm, ⟨5, _⟩ => ⟨S16384x2048, .f32⟩
  | .hbm, ⟨6, _⟩ => ⟨S1x2048, .f32⟩
  | .hbm, ⟨7, _⟩ => ⟨S16384x2048, .f32⟩
  | .hbm, ⟨8, _⟩ => ⟨S4x4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  packedbf16_S256x2048_S256x2048_0_0 : (Rect.unit (s := S256x2048) ![0, 0] S256x2048.size inb_S256x2048_S256x2048_0_0).PackedRows (EltTy.packing .bf16)
  shapeCasts_S4x4096x2048_S16384x2048 : S4x4096x2048.ShapeCasts S16384x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S16384x2048_S4x4096x2048 : S16384x2048.ShapeCasts S4x4096x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .f32 = 32 ∨ (Rect.block (s := S2048x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .bf16 = 32 ∨ (Rect.block (s := S2048x2048) S256x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .f32 = 32 ∨ (Rect.block (s := S16384x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S16384x2048.size a
  hwx1_3 : ∀ i : grid1.Coords, EltTy.bits .f32 = 32 ∨ (Rect.block (s := S16384x2048) S512x2048.size (cc1_transform_3 i) (hinb1_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S2048 : Shape := ⟨1, ![2048]⟩
abbrev S1x1x2048 : Shape := ⟨3, ![1, 1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S4x4096x2048, .f32⟩
  | .hbm, ⟨6, _⟩ => ⟨S1x1x2048, .f32⟩
  | .hbm, ⟨7, _⟩ => ⟨S4x4096x2048, .f32⟩
  | .hbm, ⟨8, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  dot_S4x4096x2048_S2048x2048_S4x4096x2048_2_1_01_0_n_n_wf : DotDims.WF S4x4096x2048 S2048x2048 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf

class Facts : Prop extends Facts₀ where

variable [Facts]
-- ==== Proof.Layer.lean ====
/-
  The masked linear layer, as mathematics. With weights `w`, a mask `mk` of the same shape, a bias `b` and an input
  `x` of shape [4, 4096, 2048], the layer's value at (p, s, o) is
      (Σ_k x[p, s, k] · (w[o, k] · mk[o, k])) + b[o]
  on the extended reals. Two descriptions of it are compared here:
  * `layer`: that formula, directly over the rank-3 input;
  * `rows`: the same layer over the input flattened to 16384 = 4 · 4096 rows, with the weights already masked
    (`masked`) and the bias laid out as one row [1, 2048].
  Flattening [4, 4096, 2048] to [16384, 2048] keeps the row-major position, so row p · 4096 + s of the flat input is
  row (p, s) of `x`; hence `rows` of the flattened data, un-flattened, is `layer` (`unflatten_rows`). No law of
  arithmetic is needed for this: each side is the same sum over `k` of the same products, plus the same bias entry.
-/
import Idealize.ShloMosaic.PureOps.Ideal
import Idealize.ShloMosaic.Lib.ValueIdx
import Idealize.ShloMosaic.Lib.Pipeline.Value

noncomputable section

open scoped BigOperators

namespace Cert.MaskedLinear

open Idealize.ShloMosaic Idealize.ShloMosaic.ValueIdx

/-- The input's shape, the weights' (and the mask's), the bias's, the flat rows', and the bias as one row. -/
abbrev SX : Shape := ⟨3, ![4, 4096, 2048]⟩
abbrev SW : Shape := ⟨2, ![2048, 2048]⟩
abbrev SB : Shape := ⟨1, ![2048]⟩
abbrev SR : Shape := ⟨2, ![16384, 2048]⟩
abbrev SB2 : Shape := ⟨2, ![1, 2048]⟩

/-- The masked weights: the entrywise product of the weights and the mask. -/
def masked (w mk : SW.Idx → EReal) : SW.Idx → EReal := fun i => w i * mk i

/-- The layer over flat rows: entry (r, o) is the inner product of row `r` of the input with row `o` of the
    weights, plus entry `o` of the bias row. -/
def rows (x2 : SR.Idx → EReal) (e : SW.Idx → EReal) (b2 : SB2.Idx → EReal) : SR.Idx → EReal :=
  fun j => (∑ k : Fin 2048, x2 (ix2 (j 0 : Fin 16384) k) * e (ix2 (j 1 : Fin 2048) k)) + b2 (ix2 (0 : Fin 1) (j 1 : Fin 2048))

theorem rows_apply (x2 : SR.Idx → EReal) (e : SW.Idx → EReal) (b2 : SB2.Idx → EReal) (r : Fin 16384) (o : Fin 2048) :
    rows x2 e b2 (ix2 r o) = (∑ k : Fin 2048, x2 (ix2 r k) * e (ix2 o k)) + b2 (ix2 (0 : Fin 1) o) := rfl

/-- The layer: entry (p, s, o) is the inner product of the input's row (p, s) with row `o` of the masked weights,
    plus the bias at `o`. -/
def layer (x : SX.Idx → EReal) (w mk : SW.Idx → EReal) (b : SB.Idx → EReal) : SX.Idx → EReal :=
  fun i => (∑ k : Fin 2048, x (ix3 (i 0 : Fin 4) (i 1 : Fin 4096) k) * (w (ix2 (i 2 : Fin 2048) k) * mk (ix2 (i 2 : Fin 2048) k)))
    + b (ix1 (i 2 : Fin 2048))

theorem layer_apply (x : SX.Idx → EReal) (w mk : SW.Idx → EReal) (b : SB.Idx → EReal) (p : Fin 4) (s : Fin 4096) (o : Fin 2048) :
    layer x w mk b (ix3 p s o) = (∑ k : Fin 2048, x (ix3 p s k) * (w (ix2 o k) * mk (ix2 o k))) + b (ix1 o) := rfl

/-- The flat row that holds row (p, s) of the input. -/
def flatRow (p : Fin 4) (s : Fin 4096) : Fin 16384 := ⟨p.val * 4096 + s.val, by have := p.isLt; have := s.isLt; omega⟩

/-- The flattened input at (p · 4096 + s, k) is the input at (p, s, k). -/
theorem flatten_apply (x : SX.Idx → EReal) (h : SX.ShapeCasts SR) (p : Fin 4) (s : Fin 4096) (k : Fin 2048) :
    shapeCast SR x h (ix2 (flatRow p s) k) = x (ix3 p s k) :=
  shapeCast_apply x h (ix2 (flatRow p s) k) (ix3 p s k) (by
    rw [Shape.rowMajor_val_three, Shape.rowMajor_val_two]
    show (p.val * 4096 + s.val) * 2048 + k.val = (p.val * 4096 + s.val) * 2048 + k.val
    rfl)

/-- The bias laid out as one row, at (0, o), is the bias at `o`. -/
theorem biasRow_apply (b : SB.Idx → EReal) (h : SB.ShapeCasts SB2) (o : Fin 2048) :
    shapeCast SB2 b h (ix2 (0 : Fin 1) o) = b (ix1 o) :=
  shapeCast_apply b h (ix2 (0 : Fin 1) o) (ix1 o) (by
    rw [Shape.rowMajor_val_one, Shape.rowMajor_val_two]
    show o.val = 0 * 2048 + o.val
    omega)

/-- Un-flattening the rows' result gives the layer: the layer over the flattened input, the masked weights and the
    bias row, read back at (p, s, o) through the row p · 4096 + s, is the layer's formula. -/
theorem unflatten_rows (x : SX.Idx → EReal) (w mk : SW.Idx → EReal) (b : SB.Idx → EReal)
    (h1 : SX.ShapeCasts SR) (h2 : SB.ShapeCasts SB2) (h3 : SR.ShapeCasts SX) :
    shapeCast SX (rows (shapeCast SR x h1) (masked w mk) (shapeCast SB2 b h2)) h3 = layer x w mk b := by
  funext i
  obtain ⟨p, s, o, rfl⟩ : ∃ (p : Fin 4) (s : Fin 4096) (o : Fin 2048), i = ix3 p s o := ⟨i 0, i 1, i 2, eq_ix3 i⟩
  refine (shapeCast_apply _ h3 (ix3 p s o) (ix2 (flatRow p s) o) (by
    rw [Shape.rowMajor_val_three, Shape.rowMajor_val_two]
    show (p.val * 4096 + s.val) * 2048 + o.val = (p.val * 4096 + s.val) * 2048 + o.val
    rfl)).trans ?_
  rw [rows_apply, layer_apply, biasRow_apply]
  refine congrArg (· + b (ix1 o)) (Finset.sum_congr rfl fun k _ => ?_)
  rw [flatten_apply]
  rfl

end Cert.MaskedLinear

end
-- ==== Proof.ReferenceValue.lean ====
/-
  The reference program read at an index. Its five host operations are: the entrywise product of the weights and
  the mask; the contraction of the input's last axis with the product's last axis; the bias broadcast to [1, 1, 2048]
  and then to [4, 4096, 2048]; and the sum of the two. At the ideal instance the contraction at (p, s, o) is the sum
  over `k` of the input at (p, s, k) times the masked weight at (o, k), and the two broadcasts read the bias at `o`.
  So the reference's result is the layer's formula, entry by entry.
-/
import proofs.«145673_j91104846283071_1_alg».proof.Proof.Gen.ReferenceIdeal.Read
import proofs.«145673_j91104846283071_1_alg».proof.Proof.Layer

noncomputable section

open scoped BigOperators

namespace Cert.ReferenceIdeal.RefValue

open Cert.ReferenceIdeal Cert.ReferenceIdeal.Read Idealize.ShloMosaic Idealize.ShloMosaic.ValueIdx Cert.MaskedLinear

/-- The contraction's left operand index at output (p, s, o) and contraction coordinate `k` is (p, s, k). -/
theorem lidx_eq (p : Fin 4) (s : Fin 4096) (o k : Fin 2048) : lidx_main_v1 (ix3 p s o) k = ix3 p s k :=
  funext fun a => Fin.ext (by match a with | ⟨0, _⟩ => rfl | ⟨1, _⟩ => rfl | ⟨2, _⟩ => rfl)

/-- Its right operand index is (o, k). -/
theorem ridx_eq (p : Fin 4) (s : Fin 4096) (o k : Fin 2048) : ridx_main_v1 (ix3 p s o) k = ix2 o k :=
  funext fun a => Fin.ext (by match a with | ⟨0, _⟩ => rfl | ⟨1, _⟩ => rfl)

/-- The two broadcasts of the bias, composed, read it at `o`. -/
theorem bidx_eq (p : Fin 4) (s : Fin 4096) (o : Fin 2048) : idx_main_v2 (idx_main_v3 (ix3 p s o)) = ix1 o :=
  funext fun a => Fin.ext (by match a with | ⟨0, _⟩ => rfl)

/-- The reference's result array is the layer of its four arguments. -/
theorem result_eq (x0 : (⟨S4x4096x2048, .f32⟩ : BufTy).Contents (Elt Ideal)) (x1 x3 : (⟨S2048x2048, .f32⟩ : BufTy).Contents (Elt Ideal))
    (x2 : (⟨S2048, .f32⟩ : BufTy).Contents (Elt Ideal)) :
    val_main_v4 (F := Ideal) x0 x1 x2 x3 = layer x0 x1 x3 x2 := by
  funext i
  obtain ⟨p, s, o, rfl⟩ : ∃ (p : Fin 4) (s : Fin 4096) (o : Fin 2048), i = ix3 p s o := ⟨i 0, i 1, i 2, eq_ix3 i⟩
  rw [val_main_v4_apply, val_main_v1_apply, val_main_v3_apply, val_main_v2_apply, layer_apply, bidx_eq]
  simp only [lidx_eq, ridx_eq, val_main_v0_apply, Ideal.addf_def, Ideal.mulf_def]

end Cert.ReferenceIdeal.RefValue

end
-- ==== Proof.MaskRegion.lean ====
/-
  The first kernel region: the masked weights. Its grid has 8 points; at point `t` it reads rows 256·t … 256·t + 255
  of the weights and of the mask (all 2048 columns), multiplies them entrywise, narrows the product to the storage
  format, and writes the block back to the same rows of its output array. The 8 blocks tile the 2048 rows, so after the
  region the output array holds, at every (o, k), the narrowed product of the weight and the mask at (o, k) as the
  region found them — at any float instance, and whatever the region's entry contents are.
-/
import proofs.«145673_j91104846283071_1_alg».proof.Proof.Gen.KernelIdeal.Frame
import Idealize.ShloMosaic.Lib.Pipeline.Value

set_option maxRecDepth 16384

noncomputable section

namespace Cert.KernelIdeal.MaskRegion

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem offsets_zero : (![0, 0] : Fin 2 → Nat) = fun _ => 0 := funext fun a => by fin_cases a <;> rfl

/-- The entrywise product of two [2048, 2048] arrays, narrowed to the storage format. -/
abbrev narrowedProduct (a1 a3 : S2048x2048.Idx → Elt F .f32) : S2048x2048.Idx → Elt F .bf16 :=
  fun i => FloatOps.truncf .bf16 bitsLt_bf16_f32 (FloatOps.mulf (a1 i) (a3 i))

/-- The body's stored value is the narrowed entrywise product of its two loaded blocks. -/
theorem stored_eq (x0 x1 : Vec F S256x2048 .f32) : k0_pay1 x0 x1 = truncf .bf16 (mulf x0 x1) bitsLt_bf16_f32 := rfl

/-- Over the grid: the two input windows sit at the output window's block index, which is (t, 0) with t ≤ 7. -/
theorem block_indices : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 7
    ∧ win0_2.index t (1 : Fin 2) = 0 :=
  (by decide +kernel : ∀ t : Fin grid0.N, _)

/-- Every row block is some point's. -/
theorem block_onto : ∀ q0 : Fin 8, ∃ t : Fin cfg0.N, win0_2.index t = ![q0.val, 0] :=
  (by decide +kernel : ∀ q0 : Fin 8, ∃ t : Fin grid0.N, win0_2.index t = ![q0.val, 0])

/-- What point `t` writes back is block `t` of the narrowed product of the two arrays the region reads. -/
theorem written_eq (c : Dev nD) (t : Fin cfg0.N) :
    (dat0 V c).flushed 2 t = ((cfg0.win 2).blk t).view.read (Elt F) (narrowedProduct (V c main_arg1) (V c main_arg3)) := by
  show (cfg0.win 2).cut (grid0.coords t) ((dat0 V c).after 2 t) = _
  rw [after0_2]
  unfold out0_2
  rw [View.canon_unit_zero offsets_zero]
  simp only [View.ld_unit_zero (S := S256x2048) offsets_zero]
  rw [stored_eq]
  obtain ⟨e0, e1, e2, e3, e4, e5⟩ := block_indices t
  funext j
  show FloatOps.truncf .bf16 bitsLt_bf16_f32 (FloatOps.mulf (V c main_arg1 (((cfg0.win 0).blk t).view.emb j)) (V c main_arg3 (((cfg0.win 1).blk t).view.emb j)))
    = FloatOps.truncf .bf16 bitsLt_bf16_f32 (FloatOps.mulf (V c main_arg1 (((cfg0.win 2).blk t).view.emb j)) (V c main_arg3 (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 2048 + 1 * (j 1).val = win0_2.index t (1 : Fin 2) * 2048 + 1 * (j 1).val; omega
  have h1 : ((cfg0.win 1).blk t).view.emb j = ((cfg0.win 2).blk t).view.emb j := by
    funext a; apply Fin.ext
    match a with
    | ⟨0, _⟩ => show win0_1.index t (0 : Fin 2) * 256 + 1 * (j 0).val = win0_2.index t (0 : Fin 2) * 256 + 1 * (j 0).val; omega
    | ⟨1, _⟩ => show win0_1.index t (1 : Fin 2) * 2048 + 1 * (j 1).val = win0_2.index t (1 : Fin 2) * 2048 + 1 * (j 1).val; omega
  rw [h0, h1]

/-- An entry is in point `t`'s block iff each coordinate is in the block's range on its axis. -/
theorem mem_block (t : Fin cfg0.N) (i : S2048x2048.Idx) :
    i ∈ ((cfg0.win 2).blk t).view.set ↔ ∀ a : Fin 2, win0_2.index t a * S256x2048.size a ≤ (i a).val ∧ (i a).val < win0_2.index t a * S256x2048.size a + S256x2048.size a := by
  show i ∈ ((View.whole main_v0).slice (win0_2.rect t)).set ↔ _
  rw [View.set_slice_whole, Rect.mem_set_unit]
  exact Iff.rfl

/-- Every entry of the output array is in the block of the point that owns its row: row `o` belongs to point o / 256. -/
theorem covered (i : S2048x2048.Idx) : ∃ t : Fin cfg0.N, (cfg0.win 2).flush t = true ∧ i ∈ ((cfg0.win 2).blk t).view.set := by
  have hi0 : (i 0).val < 2048 := (i 0).isLt
  have hi1 : (i 1).val < 2048 := (i 1).isLt
  obtain ⟨t, ht⟩ := block_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 2048 ≤ (i 1).val ∧ (i 1).val < win0_2.index t (1 : Fin 2) * 2048 + 2048; omega

/-- The output array after the region: the narrowed product of the weights and the mask as the region found them. -/
theorem array_after (c : Dev nD) :
    (dat0 V c).arrAt 2 cfg0.N = narrowedProduct (V c main_arg1) (V c main_arg3) :=
  (dat0 V c).arrAt_eq_of_cover 2 _ (fun t _ => written_eq V c t) covered

end Cert.KernelIdeal.MaskRegion

end
-- ==== Proof.MatmulRegion.lean ====
/-
  The second kernel region: the rows of the linear layer. Its grid has 32 points; at point `t` it reads rows
  512·t … 512·t + 511 of the flat input (all 2048 columns), the whole [2048, 2048] weight array and the whole bias
  row [1, 2048]. It contracts the input block's column axis with the weights' column axis into a zero accumulator,
  adds the bias row to every row of the result, and writes the [512, 2048] block back to the same rows of the output.
  At the ideal instance the narrowing of the input block is the identity and the contraction into zero is the plain
  sum, so what the body stores at (r, o) is (Σ_k x[r, k] · e[o, k]) + bias[0, o]. The 32 blocks tile the 16384 rows,
  so after the region the output array is `rows` of the three arrays as the region found them.
-/
import proofs.«145673_j91104846283071_1_alg».proof.Proof.Gen.KernelIdeal.Frame
import proofs.«145673_j91104846283071_1_alg».proof.Proof.Layer
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.MatmulRegion

open Cert.KernelIdeal Cert.KernelIdeal.Gen Idealize.ShloMosaic Idealize.ShloMosaic.TcCoe Idealize.SL.Sem
open Idealize.ShloMosaic.ValueIdx Cert.MaskedLinear
open Idealize.ShloMosaic.Pipeline (Dat)

/-! ## The contraction's operand indices: output (r, o), contraction coordinate k ↦ left (r, k), right (o, k) -/

theorem lhs_axis0 (i : S512x2048.Idx) (q : dot_S512x2048_S2048x2048_S512x2048_1_1_0_0_n_n.contr.Idx) :
    (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
theorem lhs_axis1 (i : S512x2048.Idx) (q : dot_S512x2048_S2048x2048_S512x2048_1_1_0_0_n_n.contr.Idx) :
    (dot_S512x2048_S2048x2048_S512x2048_1_1_0_0_n_n.lhsIdx i q 1).val = (q ⟨0, by decide⟩).val :=
  dot_S512x2048_S2048x2048_S512x2048_1_1_0_0_n_n.lhsIdx_val_of_single rfl i q
theorem rhs_axis0 (i : S512x2048.Idx) (q : dot_S512x2048_S2048x2048_S512x2048_1_1_0_0_n_n.contr.Idx) :
    (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
theorem rhs_axis1 (i : S512x2048.Idx) (q : dot_S512x2048_S2048x2048_S512x2048_1_1_0_0_n_n.contr.Idx) :
    (dot_S512x2048_S2048x2048_S512x2048_1_1_0_0_n_n.rhsIdx i q 1).val = (q ⟨0, by decide⟩).val :=
  dot_S512x2048_S2048x2048_S512x2048_1_1_0_0_n_n.rhsIdx_val_of_single rfl i q

/-- The contraction into a zero accumulator, at (r, o): the inner product of row `r` of the left operand with row
    `o` of the right one. -/
theorem contraction_apply (l : FVec Ideal S512x2048 .bf16) (r : FVec Ideal S2048x2048 .bf16) (p : Fin 512) (o : Fin 2048) :
    matmul dot_S512x2048_S2048x2048_S512x2048_1_1_0_0_n_n none l r (constant S512x2048 .f32 0x00000000#32) (ix2 p o)
      = ∑ k : Fin 2048, l (ix2 p k) * r (ix2 o k) := by
  show FloatOps.matmul dot_S512x2048_S2048x2048_S512x2048_1_1_0_0_n_n none l r (constant S512x2048 .f32 0x00000000#32) (ix2 p o) = _
  rw [Ideal.matmul_constant_zero_apply, ← Equiv.sum_comp (contrEquiv1 dot_S512x2048_S2048x2048_S512x2048_1_1_0_0_n_n 2048 rfl rfl).symm]
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 p o) ((contrEquiv1 dot_S512x2048_S2048x2048_S512x2048_1_1_0_0_n_n 2048 rfl rfl).symm k) = ix2 p k := funext fun a => Fin.ext (by
    match a with
    | ⟨0, _⟩ => exact lhs_axis0 _ _
    | ⟨1, _⟩ => exact (lhs_axis1 _ _).trans hk)
  have er : dot_S512x2048_S2048x2048_S512x2048_1_1_0_0_n_n.rhsIdx (ix2 p o) ((contrEquiv1 dot_S512x2048_S2048x2048_S512x2048_1_1_0_0_n_n 2048 rfl rfl).symm k) = ix2 o k := funext fun a => Fin.ext (by
    match a with
    | ⟨0, _⟩ => exact rhs_axis0 _ _
    | ⟨1, _⟩ => exact (rhs_axis1 _ _).trans hk)
  rw [el, er]

/-- The bias row broadcast to [512, 2048], at (r, o), is the bias row at (0, o). -/
theorem biasRows_apply (x2 : FVec Ideal S1x2048 .f32) (p : Fin 512) (o : Fin 2048) :
    broadcastTo S512x2048 (shapeCast S1x2048 x2 shapeCasts_S1x2048_S1x2048) broadcasts_S1x2048_S512x2048 (ix2 p o) = x2 (ix2 (0 : Fin 1) o) := by
  rw [shapeCast_self]
  exact broadcastTo_apply x2 broadcasts_S1x2048_S512x2048 (ix2 p o) (ix2 (0 : Fin 1) o) (fun a => by
    match a with
    | ⟨0, _⟩ => show (0 : Nat) = if (1 : Nat) = 1 then 0 else p.val; rw [if_pos rfl]
    | ⟨1, _⟩ => show o.val = if (2048 : Nat) = 1 then 0 else o.val; rw [if_neg (by decide)])

/-- What the body stores at (r, o): the inner product of row `r` of the input block with row `o` of the weights,
    plus the bias row at (0, o). -/
theorem stored_apply (x0 : FVec Ideal S512x2048 .f32) (x1 : FVec Ideal S2048x2048 .bf16) (x2 : FVec Ideal S1x2048 .f32) (p : Fin 512) (o : Fin 2048) :
    k1_pay1 (F := Ideal) x0 x1 x2 (ix2 p o) = (∑ k : Fin 2048, x0 (ix2 p k) * x1 (ix2 o k)) + x2 (ix2 (0 : Fin 1) o) := by
  have hm : matmul dot_S512x2048_S2048x2048_S512x2048_1_1_0_0_n_n none (truncf .bf16 (shapeCast S512x2048 x0 shapeCasts_S512x2048_S512x2048) bitsLt_bf16_f32)
      (shapeCast S2048x2048 x1 shapeCasts_S2048x2048_S2048x2048) (constant S512x2048 .f32 0x00000000#32) (ix2 p o)
      = ∑ k : Fin 2048, x0 (ix2 p k) * x1 (ix2 o k) := by
    rw [shapeCast_self, shapeCast_self]
    exact contraction_apply (truncf .bf16 x0 bitsLt_bf16_f32) x1 p o
  show addf (matmul dot_S512x2048_S2048x2048_S512x2048_1_1_0_0_n_n none (truncf .bf16 (shapeCast S512x2048 x0 shapeCasts_S512x2048_S512x2048) bitsLt_bf16_f32)
      (shapeCast S2048x2048 x1 shapeCasts_S2048x2048_S2048x2048) (constant S512x2048 .f32 0x00000000#32))
      (broadcastTo S512x2048 (shapeCast S1x2048 x2 shapeCasts_S1x2048_S1x2048) broadcasts_S1x2048_S512x2048) (ix2 p o) = _
  exact congrArg₂ (· + ·) hm (biasRows_apply x2 p o)

/-- The same at any index of the block, by its two coordinates. -/
theorem stored_at (x0 : FVec Ideal S512x2048 .f32) (x1 : FVec Ideal S2048x2048 .bf16) (x2 : FVec Ideal S1x2048 .f32) (j : S512x2048.Idx) :
    k1_pay1 (F := Ideal) x0 x1 x2 j
      = (∑ k : Fin 2048, x0 (ix2 (j 0 : Fin 512) k) * x1 (ix2 (j 1 : Fin 2048) k)) + x2 (ix2 (0 : Fin 1) (j 1 : Fin 2048)) := by
  exact (congrArg (k1_pay1 (F := Ideal) x0 x1 x2) (eq_ix2 j)).trans (stored_apply x0 x1 x2 (j 0) (j 1))

/-! ## From blocks to the array -/

variable (V : (c : Dev nD) → (b : Ref sig .tc) → Buf (Elt Ideal) ((c : Thread nD τ).loc b))

theorem offsets_zero : (![0, 0] : Fin 2 → Nat) = fun _ => 0 := funext fun a => by fin_cases a <;> rfl

/-- The three arrays the region reads, as it finds them: the flat input, the weights, the bias row. -/
abbrev flatInput (c : Dev nD) : FVec Ideal S16384x2048 .f32 := V c main_v1
abbrev weights (c : Dev nD) : FVec Ideal S2048x2048 .bf16 := V c main_v0
abbrev biasRow (c : Dev nD) : FVec Ideal S1x2048 .f32 := V c main_v2

/-- Over the grid: the input's window sits at the output window's row block, (t, 0) with t ≤ 31; the weights' and the
    bias row's windows stay at block (0, 0). -/
theorem block_indices : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) ≤ 31
    ∧ win1_3.index t (1 : Fin 2) = 0 :=
  (by decide +kernel : ∀ t : Fin grid1.N, _)

/-- Every row block is some point's. -/
theorem block_onto : ∀ q0 : Fin 32, ∃ t : Fin cfg1.N, win1_3.index t = ![q0.val, 0] :=
  (by decide +kernel : ∀ q0 : Fin 32, ∃ t : Fin grid1.N, win1_3.index t = ![q0.val, 0])

/-- What point `t` writes back is block `t` of `rows` of the flat input, the weights and the bias row as the
    region finds them. -/
theorem written_eq (c : Dev nD) (t : Fin cfg1.N) :
    (dat1 V c).flushed 3 t = ((cfg1.win 3).blk t).view.read (Elt Ideal) (rows (flatInput V c) (weights V c) (biasRow V c)) := by
  show (cfg1.win 3).cut (grid1.coords t) ((dat1 V c).after 3 t) = _
  rw [after1_3]
  unfold out1_3
  rw [View.canon_unit_zero offsets_zero]
  simp only [View.ld_unit_zero (S := S512x2048) offsets_zero, View.ld_unit_zero (S := S2048x2048) offsets_zero,
    View.ld_unit_zero (S := S1x2048) offsets_zero]
  obtain ⟨e0, e1, e2, e3, e4, e5, e6, e7⟩ := block_indices t
  funext j
  refine (stored_at (iblk1 V c 0 t) (iblk1 V c 1 t) (iblk1 V c 2 t) j).trans ?_
  show (∑ k : Fin 2048, flatInput V c (((cfg1.win 0).blk t).view.emb (ix2 (j 0 : Fin 512) k)) * weights V c (((cfg1.win 1).blk t).view.emb (ix2 (j 1 : Fin 2048) k)))
      + biasRow V c (((cfg1.win 2).blk t).view.emb (ix2 (0 : Fin 1) (j 1 : Fin 2048)))
    = (∑ k : Fin 2048, flatInput V c (ix2 ((((cfg1.win 3).blk t).view.emb j) 0 : Fin 16384) k) * weights V c (ix2 ((((cfg1.win 3).blk t).view.emb j) 1 : Fin 2048) k))
      + biasRow V c (ix2 (0 : Fin 1) ((((cfg1.win 3).blk t).view.emb j) 1 : Fin 2048))
  have hx : ∀ k : Fin 2048, ((cfg1.win 0).blk t).view.emb (ix2 (j 0 : Fin 512) k) = ix2 ((((cfg1.win 3).blk t).view.emb j) 0 : Fin 16384) k := fun k => by
    funext a; apply Fin.ext
    match a with
    | ⟨0, _⟩ => show win1_0.index t (0 : Fin 2) * 512 + 1 * (j 0).val = win1_3.index t (0 : Fin 2) * 512 + 1 * (j 0).val; omega
    | ⟨1, _⟩ => show win1_0.index t (1 : Fin 2) * 2048 + 1 * k.val = k.val; omega
  have hw : ∀ k : Fin 2048, ((cfg1.win 1).blk t).view.emb (ix2 (j 1 : Fin 2048) k) = ix2 ((((cfg1.win 3).blk t).view.emb j) 1 : Fin 2048) k := fun k => by
    funext a; apply Fin.ext
    match a with
    | ⟨0, _⟩ => show win1_1.index t (0 : Fin 2) * 2048 + 1 * (j 1).val = win1_3.index t (1 : Fin 2) * 2048 + 1 * (j 1).val; omega
    | ⟨1, _⟩ => show win1_1.index t (1 : Fin 2) * 2048 + 1 * k.val = k.val; omega
  have hb : ((cfg1.win 2).blk t).view.emb (ix2 (0 : Fin 1) (j 1 : Fin 2048)) = ix2 (0 : Fin 1) ((((cfg1.win 3).blk t).view.emb j) 1 : Fin 2048) := by
    funext a; apply Fin.ext
    match a with
    | ⟨0, _⟩ => show win1_2.index t (0 : Fin 2) * 1 + 1 * 0 = 0; omega
    | ⟨1, _⟩ => show win1_2.index t (1 : Fin 2) * 2048 + 1 * (j 1).val = win1_3.index t (1 : Fin 2) * 2048 + 1 * (j 1).val; omega
  rw [hb]
  refine congrArg (· + _) (Finset.sum_congr rfl fun k _ => ?_)
  exact congrArg₂ (· * ·) (congrArg (flatInput V c) (hx k)) (congrArg (weights V c) (hw k))

/-- An entry is in point `t`'s block iff each coordinate is in the block's range on its axis. -/
theorem mem_block (t : Fin cfg1.N) (i : S16384x2048.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v3).slice (win1_3.rect t)).set ↔ _
  rw [View.set_slice_whole, Rect.mem_set_unit]
  exact Iff.rfl

/-- Every entry of the output array is in the block of the point that owns its row: row `r` belongs to point r / 512. -/
theorem covered (i : S16384x2048.Idx) : ∃ t : Fin cfg1.N, (cfg1.win 3).flush t = true ∧ i ∈ ((cfg1.win 3).blk t).view.set := by
  have hi0 : (i 0).val < 16384 := (i 0).isLt
  have hi1 : (i 1).val < 2048 := (i 1).isLt
  obtain ⟨t, ht⟩ := block_onto ⟨(i 0).val / 512, by omega⟩
  have q0 : win1_3.index t (0 : Fin 2) = (i 0).val / 512 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 2048 ≤ (i 1).val ∧ (i 1).val < win1_3.index t (1 : Fin 2) * 2048 + 2048; omega

/-- The output array after the region: `rows` of the flat input, the weights and the bias row as the region found them. -/
theorem array_after (c : Dev nD) :
    (dat1 V c).arrAt 3 cfg1.N = rows (flatInput V c) (weights V c) (biasRow V c) :=
  (dat1 V c).arrAt_eq_of_cover 3 _ (fun t _ => written_eq V c t) covered

end Cert.KernelIdeal.MatmulRegion

end
-- ==== Proof.KernelValue.lean ====
/-
  The kernel program's result as a function of its launch arguments, at the ideal instance. Between the two regions
  the host flattens the input to [16384, 2048] and lays the bias out as one row [1, 2048]; neither touches the first
  region's output, so the second region finds: the flattened input, the masked weights the first region left, and
  the bias row. After the second region the host un-flattens its output to [4, 4096, 2048]. Composing the two regions'
  array values with these three reshapes, the result array is the un-flattened `rows` of the flattened input, the
  masked weights and the bias row — which is the layer of the four launch arguments (`unflatten_rows`). At the ideal
  instance the narrowing of the masked weights to the storage format is the identity.
-/
import proofs.«145673_j91104846283071_1_alg».proof.Proof.Gen.KernelIdeal.Frame
import proofs.«145673_j91104846283071_1_alg».proof.Proof.Layer
import proofs.«145673_j91104846283071_1_alg».proof.Proof.MaskRegion
import proofs.«145673_j91104846283071_1_alg».proof.Proof.MatmulRegion
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem Idealize.ShloMosaic.StableHlo
open Cert.MaskedLinear

variable (m : (ℓ : Loc nD τ sig) → Buf (Elt Ideal) ℓ) (ρ : Dev nD → PrngReg)

/-- The launch arguments on core `c`, by their literal types. -/
abbrev input (c : Dev nD) : FVec Ideal S4x4096x2048 .f32 := m ((c : Thread nD τ).loc main_arg0)
abbrev weight (c : Dev nD) : FVec Ideal S2048x2048 .f32 := m ((c : Thread nD τ).loc main_arg1)
abbrev bias (c : Dev nD) : FVec Ideal S2048 .f32 := m ((c : Thread nD τ).loc main_arg2)
abbrev mask (c : Dev nD) : FVec Ideal S2048x2048 .f32 := m ((c : Thread nD τ).loc main_arg3)

/-- The second region finds the input flattened to [16384, 2048]. -/
theorem entry_flatInput (c : Dev nD) :
    MatmulRegion.flatInput (V2 m ρ) c = shapeCast S16384x2048 (input m c) shapeCasts_S4x4096x2048_S16384x2048 := by
  show StableHlo.after hostOps1 (W1 m ρ c) (Proc.devRef .tc main_v1) = _
  dsimp only [hostOps1]
  after_results
  rw [W1_of_ne m ρ c main_arg0 (by decide)]
  rfl

/-- It finds the bias laid out as one row. -/
theorem entry_biasRow (c : Dev nD) :
    MatmulRegion.biasRow (V2 m ρ) c = shapeCast S1x2048 (bias m c) shapeCasts_S2048_S1x2048 := by
  show StableHlo.after hostOps1 (W1 m ρ c) (Proc.devRef .tc main_v2) = _
  dsimp only [hostOps1]
  after_results
  rw [W1_of_ne m ρ c main_arg2 (by decide)]
  rfl

/-- It finds, as its weights, what the first region left: the narrowed product of the weights and the mask. -/
theorem entry_weights (c : Dev nD) :
    MatmulRegion.weights (V2 m ρ) c = MaskRegion.narrowedProduct (F := Ideal) (weight m c) (mask m c) := by
  show StableHlo.after hostOps1 (W1 m ρ c) (Proc.devRef .tc main_v0) = _
  dsimp only [hostOps1]
  after_results
  exact (W1_arr m ρ c 2).trans (MaskRegion.array_after (V0 m ρ) c)

/-- The result array is the second region's output, un-flattened. -/
theorem result_unflattened (c : Dev nD) :
    W4 m ρ c (Proc.devRef .tc main_v4)
      = shapeCast S4x4096x2048 ((dat1 (V2 m ρ) c).arrAt 3 cfg1.N) shapeCasts_S16384x2048_S4x4096x2048 := by
  show StableHlo.after hostOps2 (W3 m ρ c) (Proc.devRef .tc main_v4) = _
  dsimp only [hostOps2]
  after_results
  rw [show W3 m ρ c (Proc.devRef .tc main_v3) = (dat1 (V2 m ρ) c).arrAt 3 cfg1.N from W3_arr m ρ c 3]
  rfl

/-- At the ideal instance the narrowed product is the product. -/
theorem narrowedProduct_eq (w mk : FVec Ideal S2048x2048 .f32) :
    MaskRegion.narrowedProduct (F := Ideal) w mk = masked w mk := rfl

/-- The kernel program's result array is the layer of its four launch arguments. -/
theorem result_eq (c : Dev nD) :
    W4 m ρ c (Proc.devRef .tc main_v4) = layer (input m c) (weight m c) (mask m c) (bias m c) := by
  rw [result_unflattened, MatmulRegion.array_after (V2 m ρ) c, entry_flatInput, entry_biasRow, entry_weights, narrowedProduct_eq]
  exact unflatten_rows (input m c) (weight m c) (mask m c) (bias m c) _ _ _

end Cert.KernelIdeal.KernelValue

end
-- ==== Proof.lean ====
/-
  A masked linear layer, y[p, s, o] = (Σ_k x[p, s, k] · (w[o, k] · mk[o, k])) + b[o], computed two ways.
  The kernel program first writes the masked weights w · mk in a narrow storage format (one region over 8 row blocks),
  flattens x to 16384 rows and lays b out as one row, then computes the rows of the layer block by block (a second
  region over 32 row blocks: each block's columns contracted with the masked weights' columns into a zero accumulator,
  the bias row added to every row), and un-flattens the result. The reference multiplies w by mk, contracts x's last
  axis with the product's last axis, and adds b broadcast over the first two axes.
  On the extended reals the narrowing is the identity and the contraction into zero is the plain sum, so both
  programs' results are the one function `Cert.MaskedLinear.layer` of the four arguments: each side is, entry by
  entry, the same sum over `k` of the same products plus the same bias entry. No law of arithmetic beyond 0 + a = a
  joins them, and the inputs' finiteness is not used.
  The pieces: `Proof/Layer.lean` (the layer, its flat-rows form, and the reshape law between them),
  `Proof/ReferenceValue.lean` (the reference's result is the layer), `Proof/MaskRegion.lean` and
  `Proof/MatmulRegion.lean` (each region's output array after its run), `Proof/KernelValue.lean` (the kernel program's
  result is the layer), `Proof/KernelRun.lean` (the kernel program's run with its result array named).
  The ideal pass rewrote no operation of the kernel, so there is nothing for `preserves` to state.
-/
import proofs.«145673_j91104846283071_1_alg».proof.Defs
import proofs.«145673_j91104846283071_1_alg».proof.Proof.Gen.Kernel
import proofs.«145673_j91104846283071_1_alg».proof.Proof.Gen.Kernel.Frame
import proofs.«145673_j91104846283071_1_alg».proof.Proof.Gen.KernelIdeal
import proofs.«145673_j91104846283071_1_alg».proof.Proof.Gen.KernelIdeal.Frame
import proofs.«145673_j91104846283071_1_alg».proof.Proof.Gen.ReferenceIdeal
import proofs.«145673_j91104846283071_1_alg».proof.Proof.Gen.ReferenceIdeal.Run
import proofs.«145673_j91104846283071_1_alg».proof.Proof.Gen.ReferenceIdeal.Read
import proofs.«145673_j91104846283071_1_alg».proof.Proof.Gen.Pre_finite_inputs
import proofs.«145673_j91104846283071_1_alg».proof.Proof.Layer
import proofs.«145673_j91104846283071_1_alg».proof.Proof.ReferenceValue
import proofs.«145673_j91104846283071_1_alg».proof.Proof.KernelValue
import proofs.«145673_j91104846283071_1_alg».proof.Proof.KernelRun
import Idealize.ShloMosaic.Adequacy
import Idealize.ShloMosaic.Init

noncomputable section

namespace Cert.Proof

open Idealize.ShloMosaic Idealize.ShloMosaic.TcCoe Idealize.SL.Sem

/-- The kernel program as printed runs, its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs, its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the layer of the arguments as their result. -/
theorem algebraic : Cert.algebraic_KernelIdeal_ReferenceIdeal := by
  intro m ρ m' ρ' _ hagree
  refine ⟨fun c => Cert.MaskedLinear.layer (Cert.KernelIdeal.KernelValue.input m c) (Cert.KernelIdeal.KernelValue.weight m c)
    (Cert.KernelIdeal.KernelValue.mask m c) (Cert.KernelIdeal.KernelValue.bias m c), ?_, ?_⟩
  · exact (θ_run Cert.KernelIdeal.defs _ _).mono
      (fun r h c => ⟨(h c).1.trans (Cert.KernelIdeal.KernelValue.result_eq m ρ c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v4_eq _ _ _ _).trans (Cert.ReferenceIdeal.RefValue.result_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
